-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x256 : Shape := ⟨2, ![128, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128x256 .f32) (main_arg5 : FVec F S256x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256x128 .f32) (main_arg4 : FVec F S128x256 .f32) (main_arg5 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x256 : Shape := ⟨2, ![128, 256]⟩
abbrev S10000x128 : Shape := ⟨2, ![10000, 128]⟩
abbrev S400x10000 : Shape := ⟨2, ![400, 10000]⟩
abbrev S400x128 : Shape := ⟨2, ![400, 128]⟩
abbrev S400x256 : Shape := ⟨2, ![400, 256]⟩

abbrev nBuf : Space → Nat
  | .hbm => 12
  | .vmem => 28
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S128x256, .f32⟩
  | .hbm, ⟨5, _⟩ => ⟨S256x256, .f32⟩
  | .hbm, ⟨6, _⟩ => ⟨S10000x256, .f32⟩
  | .hbm, ⟨7, _⟩ => ⟨S10000x128, .f32⟩
  | .hbm, ⟨8, _⟩ => ⟨S10000x128, .f32⟩
  | .hbm, ⟨9, _⟩ => ⟨S10000x256, .f32⟩
  | .hbm, ⟨10, _⟩ => ⟨S10000x256, .f32⟩
  | .hbm, ⟨11, _⟩ => ⟨S10000x256, .f32⟩
  | .local _ .vmem, ⟨0, _⟩ => ⟨S10000x256, .f32⟩
  | .local _ .vmem, ⟨1, _⟩ => ⟨S256x256, .f32⟩
  | .local _ .vmem, ⟨2, _⟩ => ⟨S10000x256, .f32⟩
  | .local _ .vmem, ⟨3, _⟩ => ⟨S400x10000, .f32⟩
  | .local _ .vmem, ⟨4, _⟩ => ⟨S400x10000, .f32⟩
  | .local _ .vmem, ⟨5, _⟩ => ⟨S10000x256, .f32⟩
  | .local _ .vmem, ⟨6, _⟩ => ⟨S256x128, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S128x256, .f32⟩
  | .local _ .vmem, ⟨13, _⟩ => ⟨S400x128, .f32⟩
  | .local _ .vmem, ⟨14, _⟩ => ⟨S400x128, .f32⟩
  | .local _ .vmem, ⟨15, _⟩ => ⟨S400x256, .f32⟩
  | .local _ .vmem, ⟨16, _⟩ => ⟨S400x256, .f32⟩
  | .local _ .vmem, ⟨17, _⟩ => ⟨S400x10000, .f32⟩
  | .local _ .vmem, ⟨18, _⟩ => ⟨S400x10000, .f32⟩
  | .local _ .vmem, ⟨19, _⟩ => ⟨S10000x256, .f32⟩
  | .local _ .vmem, ⟨20, _⟩ => ⟨S256x256, .f32⟩
  | .local _ .vmem, ⟨21, _⟩ => ⟨S400x256, .f32⟩
  | .local _ .vmem, ⟨22, _⟩ => ⟨S400x256, .f32⟩
  | .local _ .vmem, ⟨23, _⟩ => ⟨S400x10000, .f32⟩
  | .local _ .vmem, ⟨24, _⟩ => ⟨S400x10000, .f32⟩
  | .local _ .vmem, ⟨25, _⟩ => ⟨S10000x256, .f32⟩
  | .local _ .vmem, ⟨26, _⟩ => ⟨S400x256, .f32⟩
  | .local _ .vmem, ⟨27, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S400x10000_S400x10000_0_0 : ∀ a, (![0, 0] : Fin 2 → Nat) a + S400x10000.size a ≤ S400x10000.size a
  h_S400x10000 : 0 < S400x10000.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  inb_S400x256_S400x256_0_0 : ∀ a, (![0, 0] : Fin 2 → Nat) a + S400x256.size a ≤ S400x256.size a
  h_S400x256 : 0 < S400x256.numel
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x256_S256x256_S400x256_1_0_0_1_n_n_wf : DotDims.WF S400x256 S256x256 S400x256 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x256.size a ≤ S10000x256.size a
  hwx2_4 : ∀ i : grid2.Coords, EltTy.bits .f32 = 32 ∨ (Rect.block (s := S10000x256) S400x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .f32 = 32 ∨ (Rect.block (s := S10000x256) S10000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x256.size a ≤ S10000x256.size a
  hwx3_3 : ∀ i : grid3.Coords, EltTy.bits .f32 = 32 ∨ (Rect.block (s := S10000x256) S400x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x256.size a ≤ S10000x256.size a
  hwx4_1 : ∀ i : grid4.Coords, EltTy.bits .f32 = 32 ∨ (Rect.block (s := S10000x256) S10000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x256.size a ≤ S10000x256.size a
  hwx4_2 : ∀ i : grid4.Coords, EltTy.bits .f32 = 32 ∨ (Rect.block (s := S10000x256) S400x256.size (cc4_transform_2 i) (hinb4_2 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S400x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S400x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2_1) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S400x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S10000x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S400x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x256 : Shape := ⟨2, ![128, 256]⟩
abbrev S_ : Shape := ⟨0, ![]⟩
abbrev S10000x128 : Shape := ⟨2, ![10000, 128]⟩

abbrev nBuf : Space → Nat
  | .hbm => 20
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S128x256, .f32⟩
  | .hbm, ⟨5, _⟩ => ⟨S256x256, .f32⟩
  | .hbm, ⟨6, _⟩ => ⟨S10000x256, .f32⟩
  | .hbm, ⟨7, _⟩ => ⟨S10000x256, .f32⟩
  | .hbm, ⟨8, _⟩ => ⟨S_, .f32⟩
  | .hbm, ⟨9, _⟩ => ⟨S10000x256, .f32⟩
  | .hbm, ⟨10, _⟩ => ⟨S10000x256, .f32⟩
  | .hbm, ⟨11, _⟩ => ⟨S10000x128, .f32⟩
  | .hbm, ⟨12, _⟩ => ⟨S10000x128, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

class Facts : Prop extends Facts₀ where

variable [Facts]
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibMatProduct.lean ====
/-
  The product of two matrices of extended reals, read by coordinates, and the two ways a program spells it.

  For an `a × n` array `A` and an `n × b` array `B`, `mm A B` at `(p, q)` is the sum over `k < n` of
  `A (p, k) * B (k, q)`. A contraction whose dimension numbers contract the left operand's second axis with the right
  operand's first, with no batch axis, sums exactly these products (`contr_sum_eq`): the contraction's positions are
  the numbers below `n`, and at position `k` the left index is `(p, k)` and the right index `(k, q)`. Hence a
  matrix-unit product into a zero accumulator (`matmul_zero_eq_mm`) and a host `dot_general` (`dotGeneral_eq_mm`) are
  both `mm`, as whole arrays. Two further facts are about rows: restricting the left factor to some rows restricts the
  product to the same rows (`mm_rows`), and the same holds for clamping below at zero (`relu`, `relu_rows`).
-/
import Idealize.ShloMosaic.PureOps.Ideal.Laws
import Idealize.ShloMosaic.Lib.ValueIdx
import proofs.«150638_g22617297780800_cont_8to1_845_2_alg».proof.Proof.LibContraction

noncomputable section

open scoped BigOperators

namespace Cert.Lib.MatProduct

open Idealize.ShloMosaic Idealize.ShloMosaic.ValueIdx Cert.Lib.Contraction

/-- The product of an `a × n` and an `n × b` array: entry `(p, q)` is the sum over `k` of row `p` of the first
    times column `q` of the second. -/
def mm {a n b : Nat} (A : (⟨2, ![a, n]⟩ : Shape).Idx → EReal) (B : (⟨2, ![n, b]⟩ : Shape).Idx → EReal) :
    (⟨2, ![a, b]⟩ : Shape).Idx → EReal :=
  fun j => ∑ k : Fin n, A (ix2 (j 0) k) * B (ix2 k (j 1))

theorem mm_apply {a n b : Nat} (A : (⟨2, ![a, n]⟩ : Shape).Idx → EReal) (B : (⟨2, ![n, b]⟩ : Shape).Idx → EReal)
    (p : Fin a) (q : Fin b) : mm A B (ix2 p q) = ∑ k : Fin n, A (ix2 p k) * B (ix2 k q) := rfl

/-- Every entry clamped below at zero. -/
def relu {s : Shape} (v : s.Idx → EReal) : s.Idx → EReal := fun i => max (v i) 0

theorem relu_apply {s : Shape} (v : s.Idx → EReal) (i : s.Idx) : relu v i = max (v i) 0 := rfl

/-- The contraction of the left operand's second axis with the right operand's first, no batch axis: the sum over
    the contraction's positions is the product's entry. -/
theorem contr_sum_eq {a n b : Nat} (d : DotDims ⟨2, ![a, n]⟩ ⟨2, ![n, b]⟩ ⟨2, ![a, b]⟩)
    (hlc : d.lhsContracting = [1]) (hrc : d.rhsContracting = [0])
    (hln : d.lhsNonContracting = [0]) (hrn : d.rhsNonContracting = [1])
    (hlb : d.lhsBatch = []) (hrb : d.rhsBatch = [])
    (A : (⟨2, ![a, n]⟩ : Shape).Idx → EReal) (B : (⟨2, ![n, b]⟩ : Shape).Idx → EReal) (j : (⟨2, ![a, b]⟩ : Shape).Idx) :
    ∑ k : d.contr.Idx, A (d.lhsIdx j k) * B (d.rhsIdx j k) = mm A B j := by
  unfold mm
  rw [sum_contr d hlc n rfl]
  refine Finset.sum_congr rfl fun i _ => ?_
  have hl : d.lhsIdx j ((contrFin d hlc n rfl).symm i) = ix2 (j 0) i := by
    funext ax; apply Fin.ext
    match ax with
    | ⟨0, _⟩ => exact lhs_free d hlb hln j _ Nat.zero_lt_two
    | ⟨1, _⟩ => exact lhs_contracted d hlc n rfl j i
  have hr : d.rhsIdx j ((contrFin d hlc n rfl).symm i) = ix2 i (j 1) := by
    funext ax; apply Fin.ext
    match ax with
    | ⟨0, _⟩ => exact rhs_contracted d hlc hrc n rfl j i
    | ⟨1, _⟩ => exact rhs_free d hlb hrb hln hrn j _ Nat.one_lt_two
  rw [hl, hr]
  rfl

/-- A matrix-unit product into the zero accumulator is the product of the two arrays. -/
theorem matmul_zero_eq_mm {a n b : Nat} {φ₁ φ₂ : FTy} (d : DotDims ⟨2, ![a, n]⟩ ⟨2, ![n, b]⟩ ⟨2, ![a, b]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![a, n]⟩ φ₁) (B : FVec Ideal ⟨2, ![n, b]⟩ φ₂) :
    matmul (F := Ideal) d prec A B (constant ⟨2, ![a, b]⟩ .f32 0x00000000#32) = mm A B :=
  funext fun j => (Ideal.matmul_constant_zero_apply d prec A B j).trans (contr_sum_eq d hlc hrc hln hrn hlb hrb A B j)

/-- A host `dot_general` with the same dimension numbers is the product of the two arrays. -/
theorem dotGeneral_eq_mm {a n b : Nat} {φ₁ φ₂ : FTy} (d : DotDims ⟨2, ![a, n]⟩ ⟨2, ![n, b]⟩ ⟨2, ![a, b]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![a, n]⟩ φ₁) (B : FVec Ideal ⟨2, ![n, b]⟩ φ₂) :
    Host.dotGeneral (F := Ideal) d prec A B = mm A B :=
  funext fun j => (Ideal.dotGeneral_apply d prec .single A B j).trans (contr_sum_eq d hlc hrc hln hrn hlb hrb A B j)

/-- Rows of the product come from rows of the left factor: if `A'` holds, in its row `r`, row `e r` of `A`, then
    `mm A' B` holds, in its row `r`, row `e r` of `mm A B`. -/
theorem mm_rows {a' a n b : Nat} (e : Fin a' → Fin a) (A' : (⟨2, ![a', n]⟩ : Shape).Idx → EReal)
    (A : (⟨2, ![a, n]⟩ : Shape).Idx → EReal) (B : (⟨2, ![n, b]⟩ : Shape).Idx → EReal)
    (h : ∀ (r : Fin a') (k : Fin n), A' (ix2 r k) = A (ix2 (e r) k)) (r : Fin a') (q : Fin b) :
    mm A' B (ix2 r q) = mm A B (ix2 (e r) q) := by
  rw [mm_apply, mm_apply]
  exact Finset.sum_congr rfl fun k _ => by rw [h r k]

/-- The same for the clamp at zero. -/
theorem relu_rows {a' a n : Nat} (e : Fin a' → Fin a) (A' : (⟨2, ![a', n]⟩ : Shape).Idx → EReal)
    (A : (⟨2, ![a, n]⟩ : Shape).Idx → EReal)
    (h : ∀ (r : Fin a') (k : Fin n), A' (ix2 r k) = A (ix2 (e r) k)) (r : Fin a') (k : Fin n) :
    relu A' (ix2 r k) = relu A (ix2 (e r) k) := by
  rw [relu_apply, relu_apply, h r k]

/-- One layer — a product, the clamp, a second product — restricted to rows: rows of the result come from the same
    rows of the first factor. -/
theorem layer_rows {a' a n h b : Nat} (e : Fin a' → Fin a) (A' : (⟨2, ![a', n]⟩ : Shape).Idx → EReal)
    (A : (⟨2, ![a, n]⟩ : Shape).Idx → EReal) (S : (⟨2, ![n, h]⟩ : Shape).Idx → EReal) (W : (⟨2, ![h, b]⟩ : Shape).Idx → EReal)
    (hA : ∀ (r : Fin a') (k : Fin n), A' (ix2 r k) = A (ix2 (e r) k)) (r : Fin a') (q : Fin b) :
    mm (relu (mm A' S)) W (ix2 r q) = mm (relu (mm A S)) W (ix2 (e r) q) :=
  mm_rows e _ _ W (fun r k => relu_rows e _ _ (fun r k => mm_rows e A' A S hA r k) r k) r q

/-- Two products in a row, restricted to rows. -/
theorem mm_mm_rows {a' a n h b : Nat} (e : Fin a' → Fin a) (A' : (⟨2, ![a', n]⟩ : Shape).Idx → EReal)
    (A : (⟨2, ![a, n]⟩ : Shape).Idx → EReal) (S : (⟨2, ![n, h]⟩ : Shape).Idx → EReal) (W : (⟨2, ![h, b]⟩ : Shape).Idx → EReal)
    (hA : ∀ (r : Fin a') (k : Fin n), A' (ix2 r k) = A (ix2 (e r) k)) (r : Fin a') (q : Fin b) :
    mm (mm A' S) W (ix2 r q) = mm (mm A S) W (ix2 (e r) q) :=
  mm_rows e _ _ W (fun r k => mm_rows e A' A S hA r k) r q

/-- The vector clamp against a splat of the zero word is `relu`. -/
theorem maximumf_zero_eq_relu {s : Shape} (v : FVec Ideal s .f32) :
    maximumf v (broadcast s (Scalar.ofBits (F := Ideal) .f32 0x00000000#32)) = relu v := by
  funext i
  show max (v i) (Ideal.ofBits .f32 0x00000000#32) = max (v i) 0
  rw [Ideal.ofBits_zero_f32]

/-- The host's form of the clamp: the maximum with a scalar zero broadcast to the array's shape. -/
theorem maximumf_bcast_zero_eq_relu {s t : Shape} (dims : Fin s.rank → Fin t.rank) (h : s.BroadcastsInDim t dims)
    (v : FVec Ideal t .f32) :
    maximumf v (broadcastInDim t dims h (constant (F := Ideal) s .f32 0x00000000#32)) = relu v := by
  funext j
  show max (v j) (Ideal.ofBits .f32 0x00000000#32) = max (v j) 0
  rw [Ideal.ofBits_zero_f32]

end Cert.Lib.MatProduct

end
-- ==== Proof.Layer0.lean ====
/-
  The first launch: the features times the first weights, in one piece.

  The launch has no grid: its one point loads the whole feature array and the whole weight array, and stores their
  product over the whole output array. So after the launch the output array is `mm x w` of the arrays the launch found.
-/
import proofs.«150638_g22617297780800_cont_8to1_845_2_alg».proof.Proof.Gen.KernelIdeal.Frame
import proofs.«150638_g22617297780800_cont_8to1_845_2_alg».proof.Proof.LibMatProduct
import Idealize.ShloMosaic.Lib.Pipeline.Value

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.MatProduct

/-- What the launch leaves in its output array: the features times the weights. -/
abbrev G (x : S10000x256.Idx → EReal) (w : S256x256.Idx → EReal) : S10000x256.Idx → EReal :=
  mm x w

theorem hz : (![0, 0] : Fin 2 → Nat) = fun _ => 0 := funext fun a => by fin_cases a <;> rfl

/-- The body's arithmetic over the arrays it loads: one product. -/
theorem pay_eq (x0 : Vec Ideal S10000x256 .f32) (x1 : Vec Ideal S256x256 .f32) :
    k0_pay1 (F := Ideal) x0 x1 = mm x0 x1 := by
  unfold k0_pay1
  dsimp only
  rw [matmul_zero_eq_mm _ rfl rfl rfl rfl rfl rfl]

variable (V : (c : Dev nD) → (b : Ref sig .tc) → Buf (Elt Ideal) ((c : Thread nD τ).loc b))

/-- What the one point writes back is the whole of `G` of the arrays the launch found. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x256) hz]
  rw [pay_eq]
  have h0 : iblk0 V c 0 t = V c main_arg0 := by
    funext j
    show V c main_arg0 (((cfg0.win 0).blk t).view.emb j) = V c main_arg0 j
    refine congrArg (V c main_arg0) (funext fun a => Fin.ext ?_)
    match a with
    | ⟨0, _⟩ => show 0 * 10000 + 1 * (j 0).val = (j 0).val; omega
    | ⟨1, _⟩ => show 0 * 256 + 1 * (j 1).val = (j 1).val; omega
  have h1 : iblk0 V c 1 t = V c main_arg2 := by
    funext j
    show V c main_arg2 (((cfg0.win 1).blk t).view.emb j) = V c main_arg2 j
    refine congrArg (V c main_arg2) (funext fun a => Fin.ext ?_)
    match a with
    | ⟨0, _⟩ => show 0 * 256 + 1 * (j 0).val = (j 0).val; omega
    | ⟨1, _⟩ => show 0 * 256 + 1 * (j 1).val = (j 1).val; omega
  rw [h0, h1]
  funext y
  show G (V c main_arg0) (V c main_arg2) y = G (V c main_arg0) (V c main_arg2) (((cfg0.win 2).blk t).view.emb y)
  refine congrArg (G (V c main_arg0) (V c main_arg2)) (funext fun a => Fin.ext ?_)
  match a with
  | ⟨0, _⟩ => show (y 0).val = 0 * 10000 + 1 * (y 0).val; omega
  | ⟨1, _⟩ => show (y 1).val = 0 * 256 + 1 * (y 1).val; omega

/-- The one block is the whole output array. -/
theorem mem_blk (t : Fin cfg0.N) (i : S10000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v0).slice (win0_2.rect t)).set ↔ _
  rw [View.set_slice_whole, Rect.mem_set_unit]
  exact Iff.rfl

theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  let tt : Fin cfg0.N := (⟨0, by decide⟩ : Fin 1)
  refine ⟨tt, flush0_2 tt, ?_⟩
  rw [mem_blk]
  intro a
  match a with
  | ⟨0, _⟩ => show 0 * 10000 ≤ (i 0).val ∧ (i 0).val < 0 * 10000 + 10000; omega
  | ⟨1, _⟩ => show 0 * 256 ≤ (i 1).val ∧ (i 1).val < 0 * 256 + 256; omega

/-- After the launch the output array is the features times the weights the launch found. -/
theorem final (c : Dev nD) : (dat0 V c).arrAt 2 cfg0.N = G (V c main_arg0) (V c main_arg2) :=
  (dat0 V c).arrAt_eq_of_cover 2 _ (fun t _ => flushed_eq V c t) cover

end Cert.KernelIdeal.Layer0

end
-- ==== Proof.Layer1.lean ====
/-
  The second launch: one layer of the network on a block of 400 rows of the adjacency.

  At grid point `t` the body multiplies rows `400 t … 400 t + 399` of the adjacency (its first window's block) by the
  whole support array (second window), clamps the product at zero, and multiplies by the whole weight array (third
  window); the result is written back to the same rows of the output array (fourth window). Rows of a product come
  from the same rows of its left factor, so what point `t` writes back is rows `400 t …` of ONE whole-array function,
  `mm (relu (mm adj s)) w`; the 25 blocks tile the 10000 rows, so after the launch the output array is that function
  of the arrays the launch found.
-/
import proofs.«150638_g22617297780800_cont_8to1_845_2_alg».proof.Proof.Gen.KernelIdeal.Frame
import proofs.«150638_g22617297780800_cont_8to1_845_2_alg».proof.Proof.LibMatProduct
import Idealize.ShloMosaic.Lib.Pipeline.Value

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.MatProduct

/-- What the launch leaves in its output array, as a function of the adjacency, the support and the weights. -/
abbrev G (adj : S10000x10000.Idx → EReal) (s : S10000x256.Idx → EReal) (w : S256x128.Idx → EReal) : S10000x128.Idx → EReal :=
  mm (relu (mm adj s)) w

theorem hz : (![0, 0] : Fin 2 → Nat) = fun _ => 0 := funext fun a => by fin_cases a <;> rfl

/-- The body's arithmetic, over the blocks it loads: the product with the support, the clamp, the product with the
    weights. -/
theorem pay_eq (x0 : Vec Ideal S400x10000 .f32) (x1 : Vec Ideal S10000x256 .f32) (x2 : Vec Ideal S256x128 .f32) :
    k1_pay1 (F := Ideal) x0 x1 x2 = mm (relu (mm x0 x1)) x2 := by
  unfold k1_pay1
  simp only [shapeCast_self]
  rw [matmul_zero_eq_mm _ rfl rfl rfl rfl rfl rfl, maximumf_zero_eq_relu, matmul_zero_eq_mm _ rfl rfl rfl rfl rfl rfl]

/-- The printed index maps over the grid: the adjacency's and the output's blocks are at block row `t`, the support
    and the weights at block zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The arithmetic of one point, over plain arrays: if the first block holds rows `400 tv …` of the adjacency and the
    other two blocks are the whole support and weights, the body's result at `y` is `G` at row `400 tv + y₀`,
    column `y₁`. -/
theorem block_eq (adj : S10000x10000.Idx → EReal) (s : S10000x256.Idx → EReal) (w : S256x128.Idx → EReal)
    (x0 : S400x10000.Idx → EReal) (x1 : S10000x256.Idx → EReal) (x2 : S256x128.Idx → EReal)
    (tv : Nat) (htv : tv < 25)
    (h0 : ∀ (r : Fin 400) (k : Fin 10000), x0 (ix2 r k) = adj (ix2 (⟨tv * 400 + r.val, by omega⟩ : Fin 10000) k))
    (h1 : x1 = s) (h2 : x2 = w) (y : S400x128.Idx) (i : S10000x128.Idx)
    (hi0 : (i 0).val = tv * 400 + (y 0).val) (hi1 : (i 1).val = (y 1).val) :
    mm (relu (mm x0 x1)) x2 y = G adj s w i := by
  subst h1 h2
  obtain ⟨p, q, rfl⟩ : ∃ (p : Fin 400) (q : Fin 128), y = ix2 p q := ⟨y 0, y 1, eq_ix2 y⟩
  have e : i = ix2 (⟨tv * 400 + p.val, by omega⟩ : Fin 10000) q := by
    funext a; apply Fin.ext
    match a with
    | ⟨0, _⟩ => exact hi0
    | ⟨1, _⟩ => exact hi1
  rw [e]
  exact layer_rows (fun r : Fin 400 => (⟨tv * 400 + r.val, by omega⟩ : Fin 10000)) x0 adj x1 x2 h0 p q

variable (V : (c : Dev nD) → (b : Ref sig .tc) → Buf (Elt Ideal) ((c : Thread nD τ).loc b))

/-- What point `t` writes back is its block of rows of `G` of the arrays the launch found. -/
theorem flushed_eq (c : Dev nD) (t : Fin cfg1.N) :
    (dat1 V c).flushed 3 t = ((cfg1.win 3).blk t).view.read (Elt Ideal) (G (V c main_arg1) (V c main_v0) (V c main_arg3)) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x256) hz, View.ld_unit_zero (S := S256x128) hz]
  rw [pay_eq]
  obtain ⟨e0, e1, e2, e3, e4, e5, e6, e7⟩ := idx_facts t
  funext y
  refine block_eq (V c main_arg1) (V c main_v0) (V c main_arg3) (iblk1 V c 0 t) (iblk1 V c 1 t) (iblk1 V c 2 t) t.val t.isLt
    ?_ ?_ ?_ y (((cfg1.win 3).blk t).view.emb y) ?_ ?_
  · intro r k
    show V c main_arg1 (((cfg1.win 0).blk t).view.emb (ix2 r k)) = _
    refine congrArg (V c main_arg1) (funext fun a => Fin.ext ?_)
    match a with
    | ⟨0, _⟩ => show win1_0.index t (0 : Fin 2) * 400 + 1 * r.val = t.val * 400 + r.val; omega
    | ⟨1, _⟩ => show win1_0.index t (1 : Fin 2) * 10000 + 1 * k.val = k.val; omega
  · funext j
    show V c main_v0 (((cfg1.win 1).blk t).view.emb j) = V c main_v0 j
    refine congrArg (V c main_v0) (funext fun a => Fin.ext ?_)
    match a with
    | ⟨0, _⟩ => show win1_1.index t (0 : Fin 2) * 10000 + 1 * (j 0).val = (j 0).val; omega
    | ⟨1, _⟩ => show win1_1.index t (1 : Fin 2) * 256 + 1 * (j 1).val = (j 1).val; omega
  · funext j
    show V c main_arg3 (((cfg1.win 2).blk t).view.emb j) = V c main_arg3 j
    refine congrArg (V c main_arg3) (funext fun a => Fin.ext ?_)
    match a with
    | ⟨0, _⟩ => show win1_2.index t (0 : Fin 2) * 256 + 1 * (j 0).val = (j 0).val; omega
    | ⟨1, _⟩ => show win1_2.index t (1 : Fin 2) * 128 + 1 * (j 1).val = (j 1).val; omega
  · show win1_3.index t (0 : Fin 2) * 400 + 1 * (y 0).val = t.val * 400 + (y 0).val; omega
  · show win1_3.index t (1 : Fin 2) * 128 + 1 * (y 1).val = (y 1).val; omega

/-- An index of the output array is in point `t`'s block iff each coordinate is in the block's range on its axis. -/
theorem mem_blk (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v1).slice (win1_3.rect t)).set ↔ _
  rw [View.set_slice_whole, Rect.mem_set_unit]
  exact Iff.rfl

/-- Every row is in the block of the point its number divided by 400 names: the blocks tile the output array. -/
theorem cover (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  let tt : Fin cfg1.N := (⟨(i 0).val / 400, by omega⟩ : Fin 25)
  obtain ⟨-, -, -, -, -, -, e6, e7⟩ := idx_facts tt
  have e6' : win1_3.index tt (0 : Fin 2) = (i 0).val / 400 := e6
  refine ⟨tt, flush1_3 tt, ?_⟩
  rw [mem_blk]
  intro a
  match a with
  | ⟨0, _⟩ => show win1_3.index tt (0 : Fin 2) * 400 ≤ (i 0).val ∧ (i 0).val < win1_3.index tt (0 : Fin 2) * 400 + 400; omega
  | ⟨1, _⟩ => show win1_3.index tt (1 : Fin 2) * 128 ≤ (i 1).val ∧ (i 1).val < win1_3.index tt (1 : Fin 2) * 128 + 128; omega

/-- After the launch the output array is `G` of the arrays the launch found. -/
theorem final (c : Dev nD) : (dat1 V c).arrAt 3 cfg1.N = G (V c main_arg1) (V c main_v0) (V c main_arg3) :=
  (dat1 V c).arrAt_eq_of_cover 3 _ (fun t _ => flushed_eq V c t) cover

end Cert.KernelIdeal.Layer1

end
-- ==== Proof.Layer2.lean ====
/-
  The third launch: the encoding, and the support of the decoder's first layer, 400 rows at a time.

  At grid point `t` the body multiplies rows `400 t … 400 t + 399` of the adjacency by the whole support array (128
  columns) — that product is the encoding's rows, written to the first output — and multiplies it by the third weights
  (128 × 256), written to the second output. Rows of a product come from the same rows of its left factor, so the two
  outputs end as `mm adj s` and `mm (mm adj s) w` of the arrays the launch found; each output's 25 blocks tile its
  10000 rows.
-/
import proofs.«150638_g22617297780800_cont_8to1_845_2_alg».proof.Proof.Gen.KernelIdeal.Frame
import proofs.«150638_g22617297780800_cont_8to1_845_2_alg».proof.Proof.LibMatProduct
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.MatProduct

/-- The first output: the adjacency times the support. -/
abbrev Genc (adj : S10000x10000.Idx → EReal) (s : S10000x128.Idx → EReal) : S10000x128.Idx → EReal :=
  mm adj s

/-- The second output: that product times the weights. -/
abbrev Gsup (adj : S10000x10000.Idx → EReal) (s : S10000x128.Idx → EReal) (w : S128x256.Idx → EReal) : S10000x256.Idx → EReal :=
  mm (mm adj s) w

theorem hz : (![0, 0] : Fin 2 → Nat) = fun _ => 0 := funext fun a => by fin_cases a <;> rfl

/-- The first store's value over the blocks the body loads: one product. -/
theorem pay1_eq (x0 : Vec Ideal S400x10000 .f32) (x1 : Vec Ideal S10000x128 .f32) :
    k2_pay1 (F := Ideal) x0 x1 = mm x0 x1 := by
  unfold k2_pay1
  simp only [shapeCast_self]
  rw [matmul_zero_eq_mm _ rfl rfl rfl rfl rfl rfl]

/-- The second store's value: that product times the weights' block. -/
theorem pay2_eq (x0 : Vec Ideal S400x10000 .f32) (x1 : Vec Ideal S10000x128 .f32) (x2 : Vec Ideal S128x256 .f32) :
    k2_pay2 (F := Ideal) x0 x1 x2 = mm (mm x0 x1) x2 := by
  unfold k2_pay2
  dsimp only
  rw [pay1_eq, matmul_zero_eq_mm _ rfl rfl rfl rfl rfl rfl]

/-- The printed index maps over the grid: the adjacency's and both outputs' blocks are at block row `t`, the support
    and the weights at block zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- One point of the first output over plain arrays. -/
theorem block_enc_eq (adj : S10000x10000.Idx → EReal) (s : S10000x128.Idx → EReal)
    (x0 : S400x10000.Idx → EReal) (x1 : S10000x128.Idx → EReal)
    (tv : Nat) (htv : tv < 25)
    (h0 : ∀ (r : Fin 400) (k : Fin 10000), x0 (ix2 r k) = adj (ix2 (⟨tv * 400 + r.val, by omega⟩ : Fin 10000) k))
    (h1 : x1 = s) (y : S400x128.Idx) (i : S10000x128.Idx)
    (hi0 : (i 0).val = tv * 400 + (y 0).val) (hi1 : (i 1).val = (y 1).val) :
    mm x0 x1 y = Genc adj s i := by
  subst h1
  obtain ⟨p, q, rfl⟩ : ∃ (p : Fin 400) (q : Fin 128), y = ix2 p q := ⟨y 0, y 1, eq_ix2 y⟩
  have e : i = ix2 (⟨tv * 400 + p.val, by omega⟩ : Fin 10000) q := by
    funext a; apply Fin.ext
    match a with
    | ⟨0, _⟩ => exact hi0
    | ⟨1, _⟩ => exact hi1
  rw [e]
  exact mm_rows (fun r : Fin 400 => (⟨tv * 400 + r.val, by omega⟩ : Fin 10000)) x0 adj x1 h0 p q

/-- One point of the second output over plain arrays. -/
theorem block_sup_eq (adj : S10000x10000.Idx → EReal) (s : S10000x128.Idx → EReal) (w : S128x256.Idx → EReal)
    (x0 : S400x10000.Idx → EReal) (x1 : S10000x128.Idx → EReal) (x2 : S128x256.Idx → EReal)
    (tv : Nat) (htv : tv < 25)
    (h0 : ∀ (r : Fin 400) (k : Fin 10000), x0 (ix2 r k) = adj (ix2 (⟨tv * 400 + r.val, by omega⟩ : Fin 10000) k))
    (h1 : x1 = s) (h2 : x2 = w) (y : S400x256.Idx) (i : S10000x256.Idx)
    (hi0 : (i 0).val = tv * 400 + (y 0).val) (hi1 : (i 1).val = (y 1).val) :
    mm (mm x0 x1) x2 y = Gsup adj s w i := by
  subst h1 h2
  obtain ⟨p, q, rfl⟩ : ∃ (p : Fin 400) (q : Fin 256), y = ix2 p q := ⟨y 0, y 1, eq_ix2 y⟩
  have e : i = ix2 (⟨tv * 400 + p.val, by omega⟩ : Fin 10000) q := by
    funext a; apply Fin.ext
    match a with
    | ⟨0, _⟩ => exact hi0
    | ⟨1, _⟩ => exact hi1
  rw [e]
  exact mm_mm_rows (fun r : Fin 400 => (⟨tv * 400 + r.val, by omega⟩ : Fin 10000)) x0 adj x1 x2 h0 p q

variable (V : (c : Dev nD) → (b : Ref sig .tc) → Buf (Elt Ideal) ((c : Thread nD τ).loc b))

/-- The adjacency's block at point `t` holds rows `400 t …` of the adjacency as the launch found it. -/
theorem adj_block (c : Dev nD) (t : Fin cfg2.N) (r : Fin 400) (k : Fin 10000) :
    iblk2 V c 0 t (ix2 r k) = V c main_arg1 (ix2 (⟨t.val * 400 + r.val, by have ht : t.val < 25 := t.isLt; omega⟩ : Fin 10000) k) := by
  obtain ⟨e0, e1, -⟩ := idx_facts t
  show V c main_arg1 (((cfg2.win 0).blk t).view.emb (ix2 r k)) = _
  refine congrArg (V c main_arg1) (funext fun a => Fin.ext ?_)
  match a with
  | ⟨0, _⟩ => show win2_0.index t (0 : Fin 2) * 400 + 1 * r.val = t.val * 400 + r.val; omega
  | ⟨1, _⟩ => show win2_0.index t (1 : Fin 2) * 10000 + 1 * k.val = k.val; omega

/-- The support's block is the whole support array. -/
theorem sup_block (c : Dev nD) (t : Fin cfg2.N) : iblk2 V c 1 t = V c main_v1 := by
  obtain ⟨-, -, e2, e3, -⟩ := idx_facts t
  funext j
  show V c main_v1 (((cfg2.win 1).blk t).view.emb j) = V c main_v1 j
  refine congrArg (V c main_v1) (funext fun a => Fin.ext ?_)
  match a with
  | ⟨0, _⟩ => show win2_1.index t (0 : Fin 2) * 10000 + 1 * (j 0).val = (j 0).val; omega
  | ⟨1, _⟩ => show win2_1.index t (1 : Fin 2) * 128 + 1 * (j 1).val = (j 1).val; omega

/-- The weights' block is the whole weight array. -/
theorem w_block (c : Dev nD) (t : Fin cfg2.N) : iblk2 V c 2 t = V c main_arg4 := by
  obtain ⟨-, -, -, -, e4, e5, -⟩ := idx_facts t
  funext j
  show V c main_arg4 (((cfg2.win 2).blk t).view.emb j) = V c main_arg4 j
  refine congrArg (V c main_arg4) (funext fun a => Fin.ext ?_)
  match a with
  | ⟨0, _⟩ => show win2_2.index t (0 : Fin 2) * 128 + 1 * (j 0).val = (j 0).val; omega
  | ⟨1, _⟩ => show win2_2.index t (1 : Fin 2) * 256 + 1 * (j 1).val = (j 1).val; omega

/-- What point `t` writes back to the first output is its block of rows of `Genc`. -/
theorem flushed_enc_eq (c : Dev nD) (t : Fin cfg2.N) :
    (dat2 V c).flushed 3 t = ((cfg2.win 3).blk t).view.read (Elt Ideal) (Genc (V c main_arg1) (V c main_v1)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x128) hz]
  rw [pay1_eq]
  obtain ⟨-, -, -, -, -, -, e6, e7, -⟩ := idx_facts t
  funext y
  refine block_enc_eq (V c main_arg1) (V c main_v1) (iblk2 V c 0 t) (iblk2 V c 1 t) t.val t.isLt
    (adj_block V c t) (sup_block V c t) y (((cfg2.win 3).blk t).view.emb y) ?_ ?_
  · show win2_3.index t (0 : Fin 2) * 400 + 1 * (y 0).val = t.val * 400 + (y 0).val; omega
  · show win2_3.index t (1 : Fin 2) * 128 + 1 * (y 1).val = (y 1).val; omega

/-- What point `t` writes back to the second output is its block of rows of `Gsup`. -/
theorem flushed_sup_eq (c : Dev nD) (t : Fin cfg2.N) :
    (dat2 V c).flushed 4 t = ((cfg2.win 4).blk t).view.read (Elt Ideal) (Gsup (V c main_arg1) (V c main_v1) (V c main_arg4)) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x128) hz, View.ld_unit_zero (S := S128x256) hz]
  rw [pay2_eq]
  obtain ⟨-, -, -, -, -, -, -, -, e8, e9⟩ := idx_facts t
  funext y
  refine block_sup_eq (V c main_arg1) (V c main_v1) (V c main_arg4) (iblk2 V c 0 t) (iblk2 V c 1 t) (iblk2 V c 2 t) t.val t.isLt
    (adj_block V c t) (sup_block V c t) (w_block V c t) y (((cfg2.win 4).blk t).view.emb y) ?_ ?_
  · show win2_4.index t (0 : Fin 2) * 400 + 1 * (y 0).val = t.val * 400 + (y 0).val; omega
  · show win2_4.index t (1 : Fin 2) * 256 + 1 * (y 1).val = (y 1).val; omega

/-- Membership in a block of the first output, by coordinate ranges. -/
theorem mem_blk_enc (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v2_0).slice (win2_3.rect t)).set ↔ _
  rw [View.set_slice_whole, Rect.mem_set_unit]
  exact Iff.rfl

/-- Membership in a block of the second output, by coordinate ranges. -/
theorem mem_blk_sup (t : Fin cfg2.N) (i : S10000x256.Idx) :
    i ∈ ((cfg2.win 4).blk t).view.set ↔ ∀ a : Fin 2, win2_4.index t a * S400x256.size a ≤ (i a).val ∧ (i a).val < win2_4.index t a * S400x256.size a + S400x256.size a := by
  show i ∈ ((View.whole main_v2_1).slice (win2_4.rect t)).set ↔ _
  rw [View.set_slice_whole, Rect.mem_set_unit]
  exact Iff.rfl

/-- The first output's blocks tile it. -/
theorem cover_enc (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  let tt : Fin cfg2.N := (⟨(i 0).val / 400, by omega⟩ : Fin 25)
  obtain ⟨-, -, -, -, -, -, e6, e7, -⟩ := idx_facts tt
  have e6' : win2_3.index tt (0 : Fin 2) = (i 0).val / 400 := e6
  refine ⟨tt, flush2_3 tt, ?_⟩
  rw [mem_blk_enc]
  intro a
  match a with
  | ⟨0, _⟩ => show win2_3.index tt (0 : Fin 2) * 400 ≤ (i 0).val ∧ (i 0).val < win2_3.index tt (0 : Fin 2) * 400 + 400; omega
  | ⟨1, _⟩ => show win2_3.index tt (1 : Fin 2) * 128 ≤ (i 1).val ∧ (i 1).val < win2_3.index tt (1 : Fin 2) * 128 + 128; omega

/-- The second output's blocks tile it. -/
theorem cover_sup (i : S10000x256.Idx) : ∃ t : Fin cfg2.N, (cfg2.win 4).flush t = true ∧ i ∈ ((cfg2.win 4).blk t).view.set := by
  have hi0 : (i 0).val < 10000 := (i 0).isLt
  have hi1 : (i 1).val < 256 := (i 1).isLt
  let tt : Fin cfg2.N := (⟨(i 0).val / 400, by omega⟩ : Fin 25)
  obtain ⟨-, -, -, -, -, -, -, -, e8, e9⟩ := idx_facts tt
  have e8' : win2_4.index tt (0 : Fin 2) = (i 0).val / 400 := e8
  refine ⟨tt, flush2_4 tt, ?_⟩
  rw [mem_blk_sup]
  intro a
  match a with
  | ⟨0, _⟩ => show win2_4.index tt (0 : Fin 2) * 400 ≤ (i 0).val ∧ (i 0).val < win2_4.index tt (0 : Fin 2) * 400 + 400; omega
  | ⟨1, _⟩ => show win2_4.index tt (1 : Fin 2) * 256 ≤ (i 1).val ∧ (i 1).val < win2_4.index tt (1 : Fin 2) * 256 + 256; omega

/-- After the launch the first output is the adjacency times the support the launch found. -/
theorem final_enc (c : Dev nD) : (dat2 V c).arrAt 3 cfg2.N = Genc (V c main_arg1) (V c main_v1) :=
  (dat2 V c).arrAt_eq_of_cover 3 _ (fun t _ => flushed_enc_eq V c t) cover_enc

/-- After the launch the second output is that product times the weights the launch found. -/
theorem final_sup (c : Dev nD) : (dat2 V c).arrAt 4 cfg2.N = Gsup (V c main_arg1) (V c main_v1) (V c main_arg4) :=
  (dat2 V c).arrAt_eq_of_cover 4 _ (fun t _ => flushed_sup_eq V c t) cover_sup

end Cert.KernelIdeal.Layer2

end
-- ==== Proof.Layer3.lean ====
/-
  The fourth launch: the decoder's first layer on a block of 400 rows of the adjacency.

  At grid point `t` the body multiplies rows `400 t … 400 t + 399` of the adjacency by the whole support array (here the
  encoding times the third weights, 256 columns), clamps at zero, and multiplies by the fourth weights (256 × 256); the
  result goes to the same rows of the output array. As for the encoder's layer, rows of a product come from the same
  rows of its left factor, so point `t` writes back rows `400 t …` of `mm (relu (mm adj s)) w`, and the 25 blocks tile
  the 10000 rows.
-/
import proofs.«150638_g22617297780800_cont_8to1_845_2_alg».proof.Proof.Gen.KernelIdeal.Frame
import proofs.«150638_g22617297780800_cont_8to1_845_2_alg».proof.Proof.LibMatProduct
import Idealize.ShloMosaic.Lib.Pipeline.Value

set_option maxRecDepth 16384

noncomputable section

namespace Cert.KernelIdeal.Layer3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.MatProduct

/-- What the launch leaves in its output array, as a function of the adjacency, the support and the weights. -/
abbrev G (adj : S10000x10000.Idx → EReal) (s : S10000x256.Idx → EReal) (w : S256x256.Idx → EReal) : S10000x256.Idx → EReal :=
  mm (relu (mm adj s)) w

theorem hz : (![0, 0] : Fin 2 → Nat) = fun _ => 0 := funext fun a => by fin_cases a <;> rfl

/-- The body's arithmetic over the blocks it loads: the product with the support, the clamp, the product with the
    weights. -/
theorem pay_eq (x0 : Vec Ideal S400x10000 .f32) (x1 : Vec Ideal S10000x256 .f32) (x2 : Vec Ideal S256x256 .f32) :
    k3_pay1 (F := Ideal) x0 x1 x2 = mm (relu (mm x0 x1)) x2 := by
  unfold k3_pay1
  simp only [shapeCast_self]
  rw [matmul_zero_eq_mm _ rfl rfl rfl rfl rfl rfl, maximumf_zero_eq_relu, matmul_zero_eq_mm _ rfl rfl rfl rfl rfl rfl]

/-- The printed index maps over the grid: the adjacency's and the output's blocks are at block row `t`, the support
    and the weights at block zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One point over plain arrays: with rows `400 tv …` of the adjacency in the first block and the whole support and
    weights in the other two, the body's result at `y` is `G` at row `400 tv + y₀`, column `y₁`. -/
theorem block_eq (adj : S10000x10000.Idx → EReal) (s : S10000x256.Idx → EReal) (w : S256x256.Idx → EReal)
    (x0 : S400x10000.Idx → EReal) (x1 : S10000x256.Idx → EReal) (x2 : S256x256.Idx → EReal)
    (tv : Nat) (htv : tv < 25)
    (h0 : ∀ (r : Fin 400) (k : Fin 10000), x0 (ix2 r k) = adj (ix2 (⟨tv * 400 + r.val, by omega⟩ : Fin 10000) k))
    (h1 : x1 = s) (h2 : x2 = w) (y : S400x256.Idx) (i : S10000x256.Idx)
    (hi0 : (i 0).val = tv * 400 + (y 0).val) (hi1 : (i 1).val = (y 1).val) :
    mm (relu (mm x0 x1)) x2 y = G adj s w i := by
  subst h1 h2
  obtain ⟨p, q, rfl⟩ : ∃ (p : Fin 400) (q : Fin 256), y = ix2 p q := ⟨y 0, y 1, eq_ix2 y⟩
  have e : i = ix2 (⟨tv * 400 + p.val, by omega⟩ : Fin 10000) q := by
    funext a; apply Fin.ext
    match a with
    | ⟨0, _⟩ => exact hi0
    | ⟨1, _⟩ => exact hi1
  rw [e]
  exact layer_rows (fun r : Fin 400 => (⟨tv * 400 + r.val, by omega⟩ : Fin 10000)) x0 adj x1 x2 h0 p q

variable (V : (c : Dev nD) → (b : Ref sig .tc) → Buf (Elt Ideal) ((c : Thread nD τ).loc b))

/-- What point `t` writes back is its block of rows of `G` of the arrays the launch found. -/
theorem flushed_eq (c : Dev nD) (t : Fin cfg3.N) :
    (dat3 V c).flushed 3 t = ((cfg3.win 3).blk t).view.read (Elt Ideal) (G (V c main_arg1) (V c main_v2_1) (V c main_arg5)) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x256) hz, View.ld_unit_zero (S := S256x256) hz]
  rw [pay_eq]
  obtain ⟨e0, e1, e2, e3, e4, e5, e6, e7⟩ := idx_facts t
  funext y
  refine block_eq (V c main_arg1) (V c main_v2_1) (V c main_arg5) (iblk3 V c 0 t) (iblk3 V c 1 t) (iblk3 V c 2 t) t.val t.isLt
    ?_ ?_ ?_ y (((cfg3.win 3).blk t).view.emb y) ?_ ?_
  · intro r k
    show V c main_arg1 (((cfg3.win 0).blk t).view.emb (ix2 r k)) = _
    refine congrArg (V c main_arg1) (funext fun a => Fin.ext ?_)
    match a with
    | ⟨0, _⟩ => show win3_0.index t (0 : Fin 2) * 400 + 1 * r.val = t.val * 400 + r.val; omega
    | ⟨1, _⟩ => show win3_0.index t (1 : Fin 2) * 10000 + 1 * k.val = k.val; omega
  · funext j
    show V c main_v2_1 (((cfg3.win 1).blk t).view.emb j) = V c main_v2_1 j
    refine congrArg (V c main_v2_1) (funext fun a => Fin.ext ?_)
    match a with
    | ⟨0, _⟩ => show win3_1.index t (0 : Fin 2) * 10000 + 1 * (j 0).val = (j 0).val; omega
    | ⟨1, _⟩ => show win3_1.index t (1 : Fin 2) * 256 + 1 * (j 1).val = (j 1).val; omega
  · funext j
    show V c main_arg5 (((cfg3.win 2).blk t).view.emb j) = V c main_arg5 j
    refine congrArg (V c main_arg5) (funext fun a => Fin.ext ?_)
    match a with
    | ⟨0, _⟩ => show win3_2.index t (0 : Fin 2) * 256 + 1 * (j 0).val = (j 0).val; omega
    | ⟨1, _⟩ => show win3_2.index t (1 : Fin 2) * 256 + 1 * (j 1).val = (j 1).val; omega
  · show win3_3.index t (0 : Fin 2) * 400 + 1 * (y 0).val = t.val * 400 + (y 0).val; omega
  · show win3_3.index t (1 : Fin 2) * 256 + 1 * (y 1).val = (y 1).val; omega

/-- An index of the output array is in point `t`'s block iff each coordinate is in the block's range on its axis. -/
theorem mem_blk (t : Fin cfg3.N) (i : S10000x256.Idx) :
    i ∈ ((cfg3.win 3).blk t).view.set ↔ ∀ a : Fin 2, win3_3.index t a * S400x256.size a ≤ (i a).val ∧ (i a).val < win3_3.index t a * S400x256.size a + S400x256.size a := by
  show i ∈ ((View.whole main_v3).slice (win3_3.rect t)).set ↔ _
  rw [View.set_slice_whole, Rect.mem_set_unit]
  exact Iff.rfl

/-- Every row is in the block of the point its number divided by 400 names: the blocks tile the output array. -/
theorem cover (i : S10000x256.Idx) : ∃ t : Fin cfg3.N, (cfg3.win 3).flush t = true ∧ i ∈ ((cfg3.win 3).blk t).view.set := by
  have hi0 : (i 0).val < 10000 := (i 0).isLt
  have hi1 : (i 1).val < 256 := (i 1).isLt
  let tt : Fin cfg3.N := (⟨(i 0).val / 400, by omega⟩ : Fin 25)
  obtain ⟨-, -, -, -, -, -, e6, e7⟩ := idx_facts tt
  have e6' : win3_3.index tt (0 : Fin 2) = (i 0).val / 400 := e6
  refine ⟨tt, flush3_3 tt, ?_⟩
  rw [mem_blk]
  intro a
  match a with
  | ⟨0, _⟩ => show win3_3.index tt (0 : Fin 2) * 400 ≤ (i 0).val ∧ (i 0).val < win3_3.index tt (0 : Fin 2) * 400 + 400; omega
  | ⟨1, _⟩ => show win3_3.index tt (1 : Fin 2) * 256 ≤ (i 1).val ∧ (i 1).val < win3_3.index tt (1 : Fin 2) * 256 + 256; omega

/-- After the launch the output array is `G` of the arrays the launch found. -/
theorem final (c : Dev nD) : (dat3 V c).arrAt 3 cfg3.N = G (V c main_arg1) (V c main_v2_1) (V c main_arg5) :=
  (dat3 V c).arrAt_eq_of_cover 3 _ (fun t _ => flushed_eq V c t) cover

end Cert.KernelIdeal.Layer3

end
-- ==== Proof.Layer4.lean ====
/-
  The last launch: the adjacency times the last support, 400 rows at a time.

  At grid point `t` the body multiplies rows `400 t … 400 t + 399` of the adjacency by the whole support array and
  writes the product to the same rows of the output. Rows of a product come from the same rows of its left factor, so
  point `t` writes back rows `400 t …` of `mm adj s`; the 25 blocks tile the 10000 rows.
-/
import proofs.«150638_g22617297780800_cont_8to1_845_2_alg».proof.Proof.Gen.KernelIdeal.Frame
import proofs.«150638_g22617297780800_cont_8to1_845_2_alg».proof.Proof.LibMatProduct
import Idealize.ShloMosaic.Lib.Pipeline.Value

set_option maxRecDepth 16384

noncomputable section

namespace Cert.KernelIdeal.Layer4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Lib.MatProduct

/-- What the launch leaves in its output array: the adjacency times the support. -/
abbrev G (adj : S10000x10000.Idx → EReal) (s : S10000x256.Idx → EReal) : S10000x256.Idx → EReal :=
  mm adj s

theorem hz : (![0, 0] : Fin 2 → Nat) = fun _ => 0 := funext fun a => by fin_cases a <;> rfl

/-- The body's arithmetic over the blocks it loads: one product. -/
theorem pay_eq (x0 : Vec Ideal S400x10000 .f32) (x1 : Vec Ideal S10000x256 .f32) :
    k4_pay1 (F := Ideal) x0 x1 = mm x0 x1 := by
  unfold k4_pay1
  simp only [shapeCast_self]
  rw [matmul_zero_eq_mm _ rfl rfl rfl rfl rfl rfl]

/-- The printed index maps over the grid: the adjacency's and the output's blocks are at block row `t`, the support
    at block zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One point over plain arrays: with rows `400 tv …` of the adjacency in the first block and the whole support in
    the second, the body's result at `y` is the product at row `400 tv + y₀`, column `y₁`. -/
theorem block_eq (adj : S10000x10000.Idx → EReal) (s : S10000x256.Idx → EReal)
    (x0 : S400x10000.Idx → EReal) (x1 : S10000x256.Idx → EReal)
    (tv : Nat) (htv : tv < 25)
    (h0 : ∀ (r : Fin 400) (k : Fin 10000), x0 (ix2 r k) = adj (ix2 (⟨tv * 400 + r.val, by omega⟩ : Fin 10000) k))
    (h1 : x1 = s) (y : S400x256.Idx) (i : S10000x256.Idx)
    (hi0 : (i 0).val = tv * 400 + (y 0).val) (hi1 : (i 1).val = (y 1).val) :
    mm x0 x1 y = G adj s i := by
  subst h1
  obtain ⟨p, q, rfl⟩ : ∃ (p : Fin 400) (q : Fin 256), y = ix2 p q := ⟨y 0, y 1, eq_ix2 y⟩
  have e : i = ix2 (⟨tv * 400 + p.val, by omega⟩ : Fin 10000) q := by
    funext a; apply Fin.ext
    match a with
    | ⟨0, _⟩ => exact hi0
    | ⟨1, _⟩ => exact hi1
  rw [e]
  exact mm_rows (fun r : Fin 400 => (⟨tv * 400 + r.val, by omega⟩ : Fin 10000)) x0 adj x1 h0 p q

variable (V : (c : Dev nD) → (b : Ref sig .tc) → Buf (Elt Ideal) ((c : Thread nD τ).loc b))

/-- What point `t` writes back is its block of rows of the product of the arrays the launch found. -/
theorem flushed_eq (c : Dev nD) (t : Fin cfg4.N) :
    (dat4 V c).flushed 2 t = ((cfg4.win 2).blk t).view.read (Elt Ideal) (G (V c main_arg1) (V c main_v3)) := by
  show (cfg4.win 2).cut (grid4.coords t) ((dat4 V c).after 2 t) = _
  rw [after4_2]
  unfold out4_2
  rw [View.canon_unit_zero hz]
  simp only [View.ld_unit_zero (S := S400x10000) hz, View.ld_unit_zero (S := S10000x256) hz]
  rw [pay_eq]
  obtain ⟨e0, e1, e2, e3, e4, e5⟩ := idx_facts t
  funext y
  refine block_eq (V c main_arg1) (V c main_v3) (iblk4 V c 0 t) (iblk4 V c 1 t) t.val t.isLt
    ?_ ?_ y (((cfg4.win 2).blk t).view.emb y) ?_ ?_
  · intro r k
    show V c main_arg1 (((cfg4.win 0).blk t).view.emb (ix2 r k)) = _
    refine congrArg (V c main_arg1) (funext fun a => Fin.ext ?_)
    match a with
    | ⟨0, _⟩ => show win4_0.index t (0 : Fin 2) * 400 + 1 * r.val = t.val * 400 + r.val; omega
    | ⟨1, _⟩ => show win4_0.index t (1 : Fin 2) * 10000 + 1 * k.val = k.val; omega
  · funext j
    show V c main_v3 (((cfg4.win 1).blk t).view.emb j) = V c main_v3 j
    refine congrArg (V c main_v3) (funext fun a => Fin.ext ?_)
    match a with
    | ⟨0, _⟩ => show win4_1.index t (0 : Fin 2) * 10000 + 1 * (j 0).val = (j 0).val; omega
    | ⟨1, _⟩ => show win4_1.index t (1 : Fin 2) * 256 + 1 * (j 1).val = (j 1).val; omega
  · show win4_2.index t (0 : Fin 2) * 400 + 1 * (y 0).val = t.val * 400 + (y 0).val; omega
  · show win4_2.index t (1 : Fin 2) * 256 + 1 * (y 1).val = (y 1).val; omega

/-- An index of the output array is in point `t`'s block iff each coordinate is in the block's range on its axis. -/
theorem mem_blk (t : Fin cfg4.N) (i : S10000x256.Idx) :
    i ∈ ((cfg4.win 2).blk t).view.set ↔ ∀ a : Fin 2, win4_2.index t a * S400x256.size a ≤ (i a).val ∧ (i a).val < win4_2.index t a * S400x256.size a + S400x256.size a := by
  show i ∈ ((View.whole main_v4).slice (win4_2.rect t)).set ↔ _
  rw [View.set_slice_whole, Rect.mem_set_unit]
  exact Iff.rfl

/-- Every row is in the block of the point its number divided by 400 names: the blocks tile the output array. -/
theorem cover (i : S10000x256.Idx) : ∃ t : Fin cfg4.N, (cfg4.win 2).flush t = true ∧ i ∈ ((cfg4.win 2).blk t).view.set := by
  have hi0 : (i 0).val < 10000 := (i 0).isLt
  have hi1 : (i 1).val < 256 := (i 1).isLt
  let tt : Fin cfg4.N := (⟨(i 0).val / 400, by omega⟩ : Fin 25)
  obtain ⟨-, -, -, -, e4, e5⟩ := idx_facts tt
  have e4' : win4_2.index tt (0 : Fin 2) = (i 0).val / 400 := e4
  refine ⟨tt, flush4_2 tt, ?_⟩
  rw [mem_blk]
  intro a
  match a with
  | ⟨0, _⟩ => show win4_2.index tt (0 : Fin 2) * 400 ≤ (i 0).val ∧ (i 0).val < win4_2.index tt (0 : Fin 2) * 400 + 400; omega
  | ⟨1, _⟩ => show win4_2.index tt (1 : Fin 2) * 256 ≤ (i 1).val ∧ (i 1).val < win4_2.index tt (1 : Fin 2) * 256 + 256; omega

/-- After the launch the output array is the product of the arrays the launch found. -/
theorem final (c : Dev nD) : (dat4 V c).arrAt 2 cfg4.N = G (V c main_arg1) (V c main_v3) :=
  (dat4 V c).arrAt_eq_of_cover 2 _ (fun t _ => flushed_eq V c t) cover

end Cert.KernelIdeal.Layer4

end
-- ==== Proof.Spec.lean ====
/-
  The network both programs compute, as functions of the six argument arrays.

  A graph-convolution layer multiplies its input by a weight array (the layer's support), multiplies the adjacency by
  that support, and applies its activation. The encoder is a layer with the clamp at zero followed by a layer with no
  activation; its result is the encoding. The decoder is the same pair applied to the encoding. Written with the
  supports named: `sup1 = x·W1`, `sup2 = relu(adj·sup1)·W2`, `enc = adj·sup2`, `sup3 = enc·W3`,
  `sup4 = relu(adj·sup3)·W4`, `dec = adj·sup4`. The two results are `dec` and `enc`.
-/
import proofs.«150638_g22617297780800_cont_8to1_845_2_alg».proof.Proof.LibMatProduct

noncomputable section

namespace Cert.Spec

open Idealize.ShloMosaic Cert.Lib.MatProduct

variable (x : (⟨2, ![10000, 256]⟩ : Shape).Idx → EReal) (adj : (⟨2, ![10000, 10000]⟩ : Shape).Idx → EReal)
  (W1 : (⟨2, ![256, 256]⟩ : Shape).Idx → EReal) (W2 : (⟨2, ![256, 128]⟩ : Shape).Idx → EReal)
  (W3 : (⟨2, ![128, 256]⟩ : Shape).Idx → EReal) (W4 : (⟨2, ![256, 256]⟩ : Shape).Idx → EReal)

/-- The first layer's support: the features times the first weights. -/
def sup1 : (⟨2, ![10000, 256]⟩ : Shape).Idx → EReal := mm x W1

/-- The second layer's support: the first layer's output (the adjacency times its support, clamped at zero) times the
    second weights. -/
def sup2 : (⟨2, ![10000, 128]⟩ : Shape).Idx → EReal := mm (relu (mm adj (sup1 x W1))) W2

/-- The encoding: the adjacency times the second support, no activation. -/
def enc : (⟨2, ![10000, 128]⟩ : Shape).Idx → EReal := mm adj (sup2 x adj W1 W2)

/-- The third layer's support: the encoding times the third weights. -/
def sup3 : (⟨2, ![10000, 256]⟩ : Shape).Idx → EReal := mm (enc x adj W1 W2) W3

/-- The fourth layer's support: the third layer's output, clamped, times the fourth weights. -/
def sup4 : (⟨2, ![10000, 256]⟩ : Shape).Idx → EReal := mm (relu (mm adj (sup3 x adj W1 W2 W3))) W4

/-- The decoding: the adjacency times the fourth support, no activation. -/
def dec : (⟨2, ![10000, 256]⟩ : Shape).Idx → EReal := mm adj (sup4 x adj W1 W2 W3 W4)

end Cert.Spec

end
-- ==== Proof.Chain.lean ====
/-
  The idealized kernel's two results as functions of its six arguments.

  @main is five launches in a row, and between launches every buffer keeps what the last launch left in it. So the
  contents at each launch's entry are read off launch by launch: an argument array is never written (a launch that
  stages it as an input window hands it back as found; the others do not touch it), and each intermediate array is
  what its launch's whole-array function makes of the arrays that launch found:
    after launch 0, `main_v0   = sup1`;   after launch 1, `main_v1 = sup2`;
    after launch 2, `main_v2_0 = enc` and `main_v2_1 = sup3`;   after launch 3, `main_v3 = sup4`;
    after launch 4, `main_v4   = dec`.
  The encoding's array is not touched by the last two launches. Put through the run with the results named, this is the
  kernel's execution: it ends with the two result arrays at `dec` and `enc` of the launch contents of the arguments.
-/
import proofs.«150638_g22617297780800_cont_8to1_845_2_alg».proof.Proof.KernelRun
import proofs.«150638_g22617297780800_cont_8to1_845_2_alg».proof.Proof.Layer0
import proofs.«150638_g22617297780800_cont_8to1_845_2_alg».proof.Proof.Layer1
import proofs.«150638_g22617297780800_cont_8to1_845_2_alg».proof.Proof.Layer2
import proofs.«150638_g22617297780800_cont_8to1_845_2_alg».proof.Proof.Layer3
import proofs.«150638_g22617297780800_cont_8to1_845_2_alg».proof.Proof.Layer4
import proofs.«150638_g22617297780800_cont_8to1_845_2_alg».proof.Proof.Spec

set_option maxRecDepth 16384

noncomputable section

namespace Cert.KernelIdeal.Chain

open Idealize.ShloMosaic Idealize.ShloMosaic.TcCoe Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-- The six arguments as launched, on core `c`. -/
abbrev ax (c : Dev nD) : S10000x256.Idx → EReal := m ((c : Thread nD τ).loc main_arg0)
abbrev aadj (c : Dev nD) : S10000x10000.Idx → EReal := m ((c : Thread nD τ).loc main_arg1)
abbrev aw1 (c : Dev nD) : S256x256.Idx → EReal := m ((c : Thread nD τ).loc main_arg2)
abbrev aw2 (c : Dev nD) : S256x128.Idx → EReal := m ((c : Thread nD τ).loc main_arg3)
abbrev aw3 (c : Dev nD) : S128x256.Idx → EReal := m ((c : Thread nD τ).loc main_arg4)
abbrev aw4 (c : Dev nD) : S256x256.Idx → EReal := m ((c : Thread nD τ).loc main_arg5)

/-! ## After launch 0 -/

theorem V1_v0 (c : Dev nD) : V1 m ρ c main_v0 = sup1 (ax m c) (aw1 m c) :=
  (W1_arr m ρ c 2).trans (Layer0.final (V0 m ρ) c)
theorem V1_arg1 (c : Dev nD) : V1 m ρ c main_arg1 = aadj m c := W1_of_ne m ρ c main_arg1 (by decide)
theorem V1_arg3 (c : Dev nD) : V1 m ρ c main_arg3 = aw2 m c := W1_of_ne m ρ c main_arg3 (by decide)
theorem V1_arg4 (c : Dev nD) : V1 m ρ c main_arg4 = aw3 m c := W1_of_ne m ρ c main_arg4 (by decide)
theorem V1_arg5 (c : Dev nD) : V1 m ρ c main_arg5 = aw4 m c := W1_of_ne m ρ c main_arg5 (by decide)

/-! ## After launch 1 -/

theorem V2_v1 (c : Dev nD) : V2 m ρ c main_v1 = sup2 (ax m c) (aadj m c) (aw1 m c) (aw2 m c) := by
  refine (W2_arr m ρ c 3).trans ((Layer1.final (V1 m ρ) c).trans ?_)
  rw [V1_arg1 m ρ c, V1_v0 m ρ c, V1_arg3 m ρ c]
  rfl
theorem V2_arg1 (c : Dev nD) : V2 m ρ c main_arg1 = aadj m c :=
  ((W2_arr m ρ c 0).trans (((dat1 (V1 m ρ) c).arrAt_in 0 rfl _).trans (A_eq1 (V1 m ρ) c 0))).trans (V1_arg1 m ρ c)
theorem V2_arg4 (c : Dev nD) : V2 m ρ c main_arg4 = aw3 m c := (W2_of_ne m ρ c main_arg4 (by decide)).trans (V1_arg4 m ρ c)
theorem V2_arg5 (c : Dev nD) : V2 m ρ c main_arg5 = aw4 m c := (W2_of_ne m ρ c main_arg5 (by decide)).trans (V1_arg5 m ρ c)

/-! ## After launch 2 -/

theorem V3_v2_0 (c : Dev nD) : V3 m ρ c main_v2_0 = enc (ax m c) (aadj m c) (aw1 m c) (aw2 m c) := by
  refine (W3_arr m ρ c 3).trans ((Layer2.final_enc (V2 m ρ) c).trans ?_)
  rw [V2_arg1 m ρ c, V2_v1 m ρ c]
  rfl
theorem V3_v2_1 (c : Dev nD) : V3 m ρ c main_v2_1 = sup3 (ax m c) (aadj m c) (aw1 m c) (aw2 m c) (aw3 m c) := by
  refine (W3_arr m ρ c 4).trans ((Layer2.final_sup (V2 m ρ) c).trans ?_)
  rw [V2_arg1 m ρ c, V2_v1 m ρ c, V2_arg4 m ρ c]
  rfl
theorem V3_arg1 (c : Dev nD) : V3 m ρ c main_arg1 = aadj m c :=
  ((W3_arr m ρ c 0).trans (((dat2 (V2 m ρ) c).arrAt_in 0 rfl _).trans (A_eq2 (V2 m ρ) c 0))).trans (V2_arg1 m ρ c)
theorem V3_arg5 (c : Dev nD) : V3 m ρ c main_arg5 = aw4 m c := (W3_of_ne m ρ c main_arg5 (by decide)).trans (V2_arg5 m ρ c)

/-! ## After launch 3 -/

theorem V4_v3 (c : Dev nD) : V4 m ρ c main_v3 = sup4 (ax m c) (aadj m c) (aw1 m c) (aw2 m c) (aw3 m c) (aw4 m c) := by
  refine (W4_arr m ρ c 3).trans ((Layer3.final (V3 m ρ) c).trans ?_)
  rw [V3_arg1 m ρ c, V3_v2_1 m ρ c, V3_arg5 m ρ c]
  rfl
theorem V4_arg1 (c : Dev nD) : V4 m ρ c main_arg1 = aadj m c :=
  ((W4_arr m ρ c 0).trans (((dat3 (V3 m ρ) c).arrAt_in 0 rfl _).trans (A_eq3 (V3 m ρ) c 0))).trans (V3_arg1 m ρ c)
theorem V4_v2_0 (c : Dev nD) : V4 m ρ c main_v2_0 = enc (ax m c) (aadj m c) (aw1 m c) (aw2 m c) :=
  (W4_of_ne m ρ c main_v2_0 (by decide)).trans (V3_v2_0 m ρ c)

/-! ## After launch 4: the two results -/

theorem W5_v4 (c : Dev nD) :
    W5 m ρ c (Proc.devRef .tc main_v4) = dec (ax m c) (aadj m c) (aw1 m c) (aw2 m c) (aw3 m c) (aw4 m c) := by
  refine (W5_arr m ρ c 2).trans ((Layer4.final (V4 m ρ) c).trans ?_)
  rw [V4_arg1 m ρ c, V4_v3 m ρ c]
  rfl
theorem W5_v2_0 (c : Dev nD) : W5 m ρ c (Proc.devRef .tc main_v2_0) = enc (ax m c) (aadj m c) (aw1 m c) (aw2 m c) :=
  (W5_of_ne m ρ c main_v2_0 (by decide)).trans (V4_v2_0 m ρ c)

/-! ## The run -/

/-- Every weakly fair execution of the idealized kernel terminates, nothing faulting, with the first result at `dec`
    and the second at `enc` of the arguments as launched, and the arguments unchanged. -/
theorem run : θ_run defs (onTc (τ := τ) (main (F := Ideal))) ⟨m, fun _ => 0, ρ⟩ (fun r => ∀ c : Dev nD,
      r.2.mem ((c.tc : Thread nD τ).loc main_v4) = dec (ax m c) (aadj m c) (aw1 m c) (aw2 m c) (aw3 m c) (aw4 m c)
      ∧ r.2.mem ((c.tc : Thread nD τ).loc main_v2_0) = enc (ax m c) (aadj m c) (aw1 m c) (aw2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W5_v4 m ρ c), (h c).2.1.trans (W5_v2_0 m ρ c), (h c).2.2⟩)
    (run_named (F := Ideal) m ρ)

end Cert.KernelIdeal.Chain

end
-- ==== Proof.Reference.lean ====
/-
  The idealized reference's two results are the network's `dec` and `enc`.

  The reference's run ends with each result at the composed term of its host operations: products spelt
  `dot_general` and, for each clamped layer, the maximum with a broadcast scalar zero. Each `dot_general` here contracts
  the left operand's second axis with the right operand's first, so it is the product of the two arrays; the maximum
  with the broadcast zero is the clamp. Rewriting the two terms operation by operation gives `dec` and `enc` as the
  network spells them.
-/
import proofs.«150638_g22617297780800_cont_8to1_845_2_alg».proof.Proof.Gen.ReferenceIdeal.Run
import proofs.«150638_g22617297780800_cont_8to1_845_2_alg».proof.Proof.Spec

noncomputable section

namespace Cert.ReferenceIdeal.RefValue

open Idealize.ShloMosaic Cert.ReferenceIdeal Cert.ReferenceIdeal.Gen Cert.Lib.MatProduct Cert.Spec

variable (x : FVec Ideal S10000x256 .f32) (adj : FVec Ideal S10000x10000 .f32) (W1 : FVec Ideal S256x256 .f32)
  (W2 : FVec Ideal S256x128 .f32) (W3 : FVec Ideal S128x256 .f32) (W4 : FVec Ideal S256x256 .f32)

/-- The reference's first result, the decoding. -/
theorem dec_eq :
    (Host.dotGeneral dot_S10000x10000_S10000x256_S10000x256_1_0_0_1_n_n none adj (Host.dotGeneral dot_S10000x256_S256x256_S10000x256_1_0_0_1_n_n none (maximumf (Host.dotGeneral dot_S10000x10000_S10000x256_S10000x256_1_0_0_1_n_n none adj (Host.dotGeneral dot_S10000x128_S128x256_S10000x256_1_0_0_1_n_n none (Host.dotGeneral dot_S10000x10000_S10000x128_S10000x128_1_0_0_1_n_n none adj (Host.dotGeneral dot_S10000x256_S256x128_S10000x128_1_0_0_1_n_n none (maximumf (Host.dotGeneral dot_S10000x10000_S10000x256_S10000x256_1_0_0_1_n_n none adj (Host.dotGeneral dot_S10000x256_S256x256_S10000x256_1_0_0_1_n_n none x W1)) (broadcastInDim S10000x256 ![] bcast_S_S10000x256 (constant S_ .f32 0x00000000#32))) W2)) W3)) (broadcastInDim S10000x256 ![] bcast_S_S10000x256 (constant S_ .f32 0x00000000#32))) W4) : FVec Ideal S10000x256 .f32)
    = dec x adj W1 W2 W3 W4 := by
  simp only [dotGeneral_eq_mm dot_S10000x256_S256x256_S10000x256_1_0_0_1_n_n rfl rfl rfl rfl rfl rfl,
    dotGeneral_eq_mm dot_S10000x10000_S10000x256_S10000x256_1_0_0_1_n_n rfl rfl rfl rfl rfl rfl,
    dotGeneral_eq_mm dot_S10000x256_S256x128_S10000x128_1_0_0_1_n_n rfl rfl rfl rfl rfl rfl,
    dotGeneral_eq_mm dot_S10000x10000_S10000x128_S10000x128_1_0_0_1_n_n rfl rfl rfl rfl rfl rfl,
    dotGeneral_eq_mm dot_S10000x128_S128x256_S10000x256_1_0_0_1_n_n rfl rfl rfl rfl rfl rfl,
    maximumf_bcast_zero_eq_relu]
  rfl

/-- The reference's second result, the encoding. -/
theorem enc_eq :
    (Host.dotGeneral dot_S10000x10000_S10000x128_S10000x128_1_0_0_1_n_n none adj (Host.dotGeneral dot_S10000x256_S256x128_S10000x128_1_0_0_1_n_n none (maximumf (Host.dotGeneral dot_S10000x10000_S10000x256_S10000x256_1_0_0_1_n_n none adj (Host.dotGeneral dot_S10000x256_S256x256_S10000x256_1_0_0_1_n_n none x W1)) (broadcastInDim S10000x256 ![] bcast_S_S10000x256 (constant S_ .f32 0x00000000#32))) W2) : FVec Ideal S10000x128 .f32)
    = enc x adj W1 W2 := by
  simp only [dotGeneral_eq_mm dot_S10000x256_S256x256_S10000x256_1_0_0_1_n_n rfl rfl rfl rfl rfl rfl,
    dotGeneral_eq_mm dot_S10000x10000_S10000x256_S10000x256_1_0_0_1_n_n rfl rfl rfl rfl rfl rfl,
    dotGeneral_eq_mm dot_S10000x256_S256x128_S10000x128_1_0_0_1_n_n rfl rfl rfl rfl rfl rfl,
    dotGeneral_eq_mm dot_S10000x10000_S10000x128_S10000x128_1_0_0_1_n_n rfl rfl rfl rfl rfl rfl,
    maximumf_bcast_zero_eq_relu]
  rfl

end Cert.ReferenceIdeal.RefValue

end
-- ==== Proof.lean ====
/-
  A graph-convolution autoencoder on a dense 10000 × 10000 adjacency: the kernel against its reference, over the
  extended reals.

  Both programs compute, from the features `x`, the adjacency `adj` and four weight arrays,
      sup1 = x·W1,  sup2 = relu(adj·sup1)·W2,  enc = adj·sup2,  sup3 = enc·W3,  sup4 = relu(adj·sup3)·W4,  dec = adj·sup4,
  and return `(dec, enc)` (Proof/Spec.lean). The reference does it with eight host products and two clamps on whole
  arrays (Proof/Reference.lean reads its run's terms as `dec` and `enc`). The kernel does it in five launches: the first
  forms `sup1` in one piece; each of the other four walks the adjacency in 25 blocks of 400 rows, and at a block
  multiplies those rows by a whole support array, and, fused into the same body, clamps and multiplies by the next
  weight array. Since a row of a product depends only on the same row of its left factor, each block written back is a
  block of rows of one whole-array function, and the blocks tile the rows (Proof/Layer0.lean … Layer4.lean); the launches
  run one after another on the same buffers (Proof/Chain.lean). Every product is an exact finite sum on both sides,
  with the same grouping, so no law of arithmetic beyond the definitions is used and the finiteness of the inputs is
  not needed. The idealization rewrote nothing, so the claim that it is sanctioned is empty.
-/
import proofs.«150638_g22617297780800_cont_8to1_845_2_alg».proof.Defs
import proofs.«150638_g22617297780800_cont_8to1_845_2_alg».proof.Proof.Gen.Kernel
import proofs.«150638_g22617297780800_cont_8to1_845_2_alg».proof.Proof.Gen.Kernel.Frame
import proofs.«150638_g22617297780800_cont_8to1_845_2_alg».proof.Proof.Gen.KernelIdeal
import proofs.«150638_g22617297780800_cont_8to1_845_2_alg».proof.Proof.Gen.KernelIdeal.Frame
import proofs.«150638_g22617297780800_cont_8to1_845_2_alg».proof.Proof.Gen.ReferenceIdeal
import proofs.«150638_g22617297780800_cont_8to1_845_2_alg».proof.Proof.Gen.ReferenceIdeal.Run
import proofs.«150638_g22617297780800_cont_8to1_845_2_alg».proof.Proof.Gen.Pre_finite_inputs
import proofs.«150638_g22617297780800_cont_8to1_845_2_alg».proof.Proof.Chain
import proofs.«150638_g22617297780800_cont_8to1_845_2_alg».proof.Proof.Reference
import Idealize.ShloMosaic.Adequacy
import Idealize.ShloMosaic.Init

noncomputable section

namespace Cert.Proof

open Idealize.ShloMosaic Idealize.SL.Sem

/-- At `Ideal` the kernel's two result arrays end at `dec` and `enc` of its arguments, and so do the reference's, of
    arguments that agree. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨_, _, Cert.KernelIdeal.Chain.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2]
    exact Cert.ReferenceIdeal.RefValue.dec_eq _ _ _ _ _ _
  · rw [(hagree c).1, (hagree c).2.1, (hagree c).2.2.1, (hagree c).2.2.2.1]
    exact Cert.ReferenceIdeal.RefValue.enc_eq _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
